-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S6x64x64 : Shape := ⟨3, ![6, 64, 64]⟩
abbrev S32x64 : Shape := ⟨2, ![32, 64]⟩
abbrev S32 : Shape := ⟨1, ![32]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S6x64x64 : S_.BroadcastsInDim S6x64x64 (![] : Fin 0 → Fin S6x64x64.rank)
  reducesTo_S6x64x64_S_d0_1_2 : S6x64x64.ReducesTo [0, 1, 2] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S524288x64 .f32) (main_arg1 : FVec F S6x64x64 .f32) (main_arg2 : FVec F S32x64 .f32) (main_arg3 : FVec F S32 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S6x64x64 .f32 := Host.absf main_arg1
  let main_cst_0 : FVec F S_ .f32 := constant S_ .f32 0x7F800000#32
  let main_v5 : FVec F S6x64x64 .f32 := broadcastInDim S6x64x64 ![] bcast_S_S6x64x64 main_cst_0
  let main_v6 : IVec S6x64x64 1 := cmpf .olt main_v4 main_v5
  let main_c_1 : IVec S_ 1 := constantI S_ 1 1#1
  let main_v7 : IVec S_ 1 := (fun x v => Host.reduce IntOp.andi x v reducesTo_S6x64x64_S_d0_1_2 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S524288x64 : Shape := ⟨2, ![524288, 64]⟩
abbrev S6x64x64 : Shape := ⟨3, ![6, 64, 64]⟩
abbrev S32x64 : Shape := ⟨2, ![32, 64]⟩
abbrev S32 : Shape := ⟨1, ![32]⟩
abbrev S1x64x64 : Shape := ⟨3, ![1, 64, 64]⟩
abbrev S64x64 : Shape := ⟨2, ![64, 64]⟩
abbrev S_ : Shape := ⟨0, ![]⟩
abbrev S64 : Shape := ⟨1, ![64]⟩
abbrev S64x1 : Shape := ⟨2, ![64, 1]⟩
abbrev S64x32 : Shape := ⟨2, ![64, 32]⟩
abbrev S1x32 : Shape := ⟨2, ![1, 32]⟩
abbrev S524288x32 : Shape := ⟨2, ![524288, 32]⟩
abbrev S8192x64 : Shape := ⟨2, ![8192, 64]⟩
abbrev S8192x32 : Shape := ⟨2, ![8192, 32]⟩

abbrev nBuf : Space → Nat
  | .hbm => 74
  | .vmem => 7
  | .smem => 0
  | _ => 0

abbrev bufTy : (tb : Table) → Fin (tcTables nBuf tb) → BufTy
  | .hbm, ⟨0, _⟩ => ⟨S524288x64, .f32⟩
  | .hbm, ⟨1, _⟩ => ⟨S6x64x64, .f32⟩
  | .hbm, ⟨2, _⟩ => ⟨S32x64, .f32⟩
  | .hbm, ⟨3, _⟩ => ⟨S32, .f32⟩
  | .hbm, ⟨4, _⟩ => ⟨S1x64x64, .f32⟩
  | .hbm, ⟨5, _⟩ => ⟨S64x64, .f32⟩
  | .hbm, ⟨6, _⟩ => ⟨S64x64, .f32⟩
  | .hbm, ⟨7, _⟩ => ⟨S1x64x64, .f32⟩
  | .hbm, ⟨8, _⟩ => ⟨S64x64, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S1x64x64, .f32⟩
  | .hbm, ⟨19, _⟩ => ⟨S64x64, .f32⟩
  | .hbm, ⟨20, _⟩ => ⟨S_, .f32⟩
  | .hbm, ⟨21, _⟩ => ⟨S64, .f32⟩
  | .hbm, ⟨22, _⟩ => ⟨S64x1, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S1x64x64, .f32⟩
  | .hbm, ⟨30, _⟩ => ⟨S64x64, .f32⟩
  | .hbm, ⟨31, _⟩ => ⟨S_, .f32⟩
  | .hbm, ⟨32, _⟩ => ⟨S64, .f32⟩
  | .hbm, ⟨33, _⟩ => ⟨S64x1, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S1x64x64, .f32⟩
  | .hbm, ⟨41, _⟩ => ⟨S64x64, .f32⟩
  | .hbm, ⟨42, _⟩ => ⟨S_, .f32⟩
  | .hbm, ⟨43, _⟩ => ⟨S64, .f32⟩
  | .hbm, ⟨44, _⟩ => ⟨S64x1, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S1x64x64, .f32⟩
  | .hbm, ⟨52, _⟩ => ⟨S64x64, .f32⟩
  | .hbm, ⟨53, _⟩ => ⟨S_, .f32⟩
  | .hbm, ⟨54, _⟩ => ⟨S64, .f32⟩
  | .hbm, ⟨55, _⟩ => ⟨S64x1, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S1x64x64, .f32⟩
  | .hbm, ⟨63, _⟩ => ⟨S1x64x64, .f32⟩
  | .hbm, ⟨64, _⟩ => ⟨S1x64x64, .f32⟩
  | .hbm, ⟨65, _⟩ => ⟨S1x64x64, .f32⟩
  | .hbm, ⟨66, _⟩ => ⟨S1x64x64, .f32⟩
  | .hbm, ⟨67, _⟩ => ⟨S1x64x64, .f32⟩
  | .hbm, ⟨68, _⟩ => ⟨S6x64x64, .f32⟩
  | .hbm, ⟨69, _⟩ => ⟨S6x64x64, .bf16⟩
  | .hbm, ⟨70, _⟩ => ⟨S64x32, .f32⟩
  | .hbm, ⟨71, _⟩ => ⟨S64x32, .bf16⟩
  | .hbm, ⟨72, _⟩ => ⟨S1x32, .f32⟩
  | .hbm, ⟨73, _⟩ => ⟨S524288x32, .f32⟩
  | .local _ .vmem, ⟨0, _⟩ => ⟨S8192x64, .f32⟩
  | .local _ .vmem, ⟨1, _⟩ => ⟨S8192x64, .f32⟩
  | .local _ .vmem, ⟨2, _⟩ => ⟨S6x64x64, .bf16⟩
  | .local _ .vmem, ⟨3, _⟩ => ⟨S64x32, .bf16⟩
  | .local _ .vmem, ⟨4, _⟩ => ⟨S1x32, .f32⟩
  | .local _ .vmem, ⟨5, _⟩ => ⟨S8192x32, .f32⟩
  | .local _ .vmem, ⟨6, _⟩ => ⟨S8192x32, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S6x64x64_S1x64x64_0_0_0 : S6x64x64.Slices ![0, 0, 0] S1x64x64
  shapeCasts_S1x64x64_S64x64 : S1x64x64.ShapeCasts S64x64
  transposes_S64x64_S64x64_1_0 : S64x64.Transposes [1, 0] S64x64
  slices_S6x64x64_S1x64x64_1_0_0 : S6x64x64.Slices ![1, 0, 0] S1x64x64
  reducesTo_S64x64_S64_d1 : S64x64.ReducesTo [1] S64
  h_S_ : 0 < S_.numel
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  slices_S6x64x64_S1x64x64_2_0_0 : S6x64x64.Slices ![2, 0, 0] S1x64x64
  slices_S6x64x64_S1x64x64_3_0_0 : S6x64x64.Slices ![3, 0, 0] S1x64x64
  slices_S6x64x64_S1x64x64_4_0_0 : S6x64x64.Slices ![4, 0, 0] S1x64x64
  slices_S6x64x64_S1x64x64_5_0_0 : S6x64x64.Slices ![5, 0, 0] S1x64x64
  bcast_S64x64_S1x64x64_1_2 : S64x64.BroadcastsInDim S1x64x64 (![1, 2] : Fin 2 → Fin S1x64x64.rank)
  concatenates_S1x64x64_S1x64x64_S1x64x64_S1x64x64_S1x64x64_S1x64x64_S6x64x64_d0 : Shape.Concatenates [S1x64x64, S1x64x64, S1x64x64, S1x64x64, S1x64x64, S1x64x64] S6x64x64 0
  bitsLt_bf16_f32 : FTy.bits .bf16 < FTy.bits .f32
  transposes_S32x64_S64x32_1_0 : S32x64.Transposes [1, 0] S64x32
  shapeCasts_S32_S1x32 : S32.ShapeCasts S1x32
  inb_S8192x64_S8192x64_0_0 : ∀ a, (![0, 0] : Fin 2 → Nat) a + S8192x64.size a ≤ S8192x64.size a
  h_S8192x64 : 0 < S8192x64.numel
  inb_S6x64x64_S6x64x64_0_0_0 : ∀ a, (![0, 0, 0] : Fin 3 → Nat) a + S6x64x64.size a ≤ S6x64x64.size a
  h_S6x64x64 : 0 < S6x64x64.numel
  shapeCasts_S6x64x64_S6x64x64 : S6x64x64.ShapeCasts S6x64x64
  slices_S6x64x64_o0_0_0_S1x64x64 : S6x64x64.Slices ![0, 0, 0] S1x64x64
  slices_S6x64x64_o1_0_0_S1x64x64 : S6x64x64.Slices ![1, 0, 0] S1x64x64
  slices_S6x64x64_o2_0_0_S1x64x64 : S6x64x64.Slices ![2, 0, 0] S1x64x64
  slices_S6x64x64_o3_0_0_S1x64x64 : S6x64x64.Slices ![3, 0, 0] S1x64x64
  slices_S6x64x64_o4_0_0_S1x64x64 : S6x64x64.Slices ![4, 0, 0] S1x64x64
  slices_S6x64x64_o5_0_0_S1x64x64 : S6x64x64.Slices ![5, 0, 0] S1x64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S8192x32_S8192x32_0_0 : ∀ a, (![0, 0] : Fin 2 → Nat) a + S8192x32.size a ≤ S8192x32.size a
  h_S8192x32 : 0 < S8192x32.numel
  dot_S8192x64_S64x64_S8192x64_1_0_0_1_n_n_wf : DotDims.WF S8192x64 S64x64 S8192x64 [1] [0] [0] [1] [] []
  dot_S8192x64_S64x32_S8192x32_1_0_0_1_n_n_wf : DotDims.WF S8192x64 S64x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S524288x64.size a
  hwx0_0 : ∀ i : grid0.Coords, EltTy.bits .f32 = 32 ∨ (Rect.block (s := S524288x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64x64.size a ≤ S6x64x64.size a
  hwx0_1 : ∀ i : grid0.Coords, EltTy.bits .bf16 = 32 ∨ (Rect.block (s := S6x64x64) S6x64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .bf16 = 32 ∨ (Rect.block (s := S64x32) S64x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x32.size a ≤ S524288x32.size a
  hwx0_4 : ∀ i : grid0.Coords, EltTy.bits .f32 = 32 ∨ (Rect.block (s := S524288x32) S8192x32.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S6x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v59) S8192x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x64 : Shape := ⟨2, ![524288, 64]⟩
abbrev S6x64x64 : Shape := ⟨3, ![6, 64, 64]⟩
abbrev S32x64 : Shape := ⟨2, ![32, 64]⟩
abbrev S32 : Shape := ⟨1, ![32]⟩
abbrev S_ : Shape := ⟨0, ![]⟩
abbrev S64 : Shape := ⟨1, ![64]⟩
abbrev S1x64x64 : Shape := ⟨3, ![1, 64, 64]⟩
abbrev S64x64 : Shape := ⟨2, ![64, 64]⟩
abbrev S64x1 : Shape := ⟨2, ![64, 1]⟩
abbrev S1x64 : Shape := ⟨2, ![1, 64]⟩
abbrev S64x32 : Shape := ⟨2, ![64, 32]⟩
abbrev S524288x32 : Shape := ⟨2, ![524288, 32]⟩
abbrev S1x32 : Shape := ⟨2, ![1, 32]⟩

abbrev nBuf : Space → Nat
  | .hbm => 102
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S6x64x64, .f32⟩
  | .hbm, ⟨2, _⟩ => ⟨S32x64, .f32⟩
  | .hbm, ⟨3, _⟩ => ⟨S32, .f32⟩
  | .hbm, ⟨4, _⟩ => ⟨S_, .f32⟩
  | .hbm, ⟨5, _⟩ => ⟨S64, .f32⟩
  | .hbm, ⟨6, _⟩ => ⟨S1x64x64, .f32⟩
  | .hbm, ⟨7, _⟩ => ⟨S64x64, .f32⟩
  | .hbm, ⟨8, _⟩ => ⟨S64x64, .f32⟩
  | .hbm, ⟨9, _⟩ => ⟨S524288x64, .f32⟩
  | .hbm, ⟨10, _⟩ => ⟨S1x64x64, .f32⟩
  | .hbm, ⟨11, _⟩ => ⟨S64x64, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S524288x64, .f32⟩
  | .hbm, ⟨22, _⟩ => ⟨S524288x64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S524288x64, .f32⟩
  | .hbm, ⟨28, _⟩ => ⟨S524288x64, .f32⟩
  | .hbm, ⟨29, _⟩ => ⟨S1x64x64, .f32⟩
  | .hbm, ⟨30, _⟩ => ⟨S64x64, .f32⟩
  | .hbm, ⟨31, _⟩ => ⟨S_, .f32⟩
  | .hbm, ⟨32, _⟩ => ⟨S64, .f32⟩
  | .hbm, ⟨33, _⟩ => ⟨S64x1, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S524288x64, .f32⟩
  | .hbm, ⟨41, _⟩ => ⟨S524288x64, .f32⟩
  | .hbm, ⟨42, _⟩ => ⟨S_, .f32⟩
  | .hbm, ⟨43, _⟩ => ⟨S524288x64, .f32⟩
  | .hbm, ⟨44, _⟩ => ⟨S524288x64, .f32⟩
  | .hbm, ⟨45, _⟩ => ⟨S524288x64, .f32⟩
  | .hbm, ⟨46, _⟩ => ⟨S1x64x64, .f32⟩
  | .hbm, ⟨47, _⟩ => ⟨S64x64, .f32⟩
  | .hbm, ⟨48, _⟩ => ⟨S_, .f32⟩
  | .hbm, ⟨49, _⟩ => ⟨S64, .f32⟩
  | .hbm, ⟨50, _⟩ => ⟨S64x1, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S524288x64, .f32⟩
  | .hbm, ⟨58, _⟩ => ⟨S524288x64, .f32⟩
  | .hbm, ⟨59, _⟩ => ⟨S_, .f32⟩
  | .hbm, ⟨60, _⟩ => ⟨S524288x64, .f32⟩
  | .hbm, ⟨61, _⟩ => ⟨S524288x64, .f32⟩
  | .hbm, ⟨62, _⟩ => ⟨S524288x64, .f32⟩
  | .hbm, ⟨63, _⟩ => ⟨S1x64x64, .f32⟩
  | .hbm, ⟨64, _⟩ => ⟨S64x64, .f32⟩
  | .hbm, ⟨65, _⟩ => ⟨S_, .f32⟩
  | .hbm, ⟨66, _⟩ => ⟨S64, .f32⟩
  | .hbm, ⟨67, _⟩ => ⟨S64x1, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S_, .f32⟩
  | .hbm, ⟨72, _⟩ => ⟨S64x64, .f32⟩
  | .hbm, ⟨73, _⟩ => ⟨S64x64, .f32⟩
  | .hbm, ⟨74, _⟩ => ⟨S524288x64, .f32⟩
  | .hbm, ⟨75, _⟩ => ⟨S524288x64, .f32⟩
  | .hbm, ⟨76, _⟩ => ⟨S_, .f32⟩
  | .hbm, ⟨77, _⟩ => ⟨S524288x64, .f32⟩
  | .hbm, ⟨78, _⟩ => ⟨S524288x64, .f32⟩
  | .hbm, ⟨79, _⟩ => ⟨S524288x64, .f32⟩
  | .hbm, ⟨80, _⟩ => ⟨S1x64x64, .f32⟩
  | .hbm, ⟨81, _⟩ => ⟨S64x64, .f32⟩
  | .hbm, ⟨82, _⟩ => ⟨S_, .f32⟩
  | .hbm, ⟨83, _⟩ => ⟨S64, .f32⟩
  | .hbm, ⟨84, _⟩ => ⟨S64x1, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S524288x64, .f32⟩
  | .hbm, ⟨92, _⟩ => ⟨S524288x64, .f32⟩
  | .hbm, ⟨93, _⟩ => ⟨S_, .f32⟩
  | .hbm, ⟨94, _⟩ => ⟨S524288x64, .f32⟩
  | .hbm, ⟨95, _⟩ => ⟨S524288x64, .f32⟩
  | .hbm, ⟨96, _⟩ => ⟨S524288x64, .f32⟩
  | .hbm, ⟨97, _⟩ => ⟨S64x32, .f32⟩
  | .hbm, ⟨98, _⟩ => ⟨S524288x32, .f32⟩
  | .hbm, ⟨99, _⟩ => ⟨S1x32, .f32⟩
  | .hbm, ⟨100, _⟩ => ⟨S524288x32, .f32⟩
  | .hbm, ⟨101, _⟩ => ⟨S524288x32, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]

class Facts₀ : Prop where
  bcast_S_S64 : S_.BroadcastsInDim S64 (![] : Fin 0 → Fin S64.rank)
  slices_S6x64x64_S1x64x64_0_0_0 : S6x64x64.Slices ![0, 0, 0] S1x64x64
  shapeCasts_S1x64x64_S64x64 : S1x64x64.ShapeCasts S64x64
  transposes_S64x64_S64x64_1_0 : S64x64.Transposes [1, 0] S64x64
  slices_S6x64x64_S1x64x64_1_0_0 : S6x64x64.Slices ![1, 0, 0] S1x64x64
  reducesTo_S64x64_S64_d1 : S64x64.ReducesTo [1] S64
  h_S_ : 0 < S_.numel
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  slices_S6x64x64_S1x64x64_2_0_0 : S6x64x64.Slices ![2, 0, 0] S1x64x64
  bcast_S_S524288x64 : S_.BroadcastsInDim S524288x64 (![] : Fin 0 → Fin S524288x64.rank)
  slices_S6x64x64_S1x64x64_3_0_0 : S6x64x64.Slices ![3, 0, 0] S1x64x64
  slices_S6x64x64_S1x64x64_4_0_0 : S6x64x64.Slices ![4, 0, 0] S1x64x64
  slices_S6x64x64_S1x64x64_5_0_0 : S6x64x64.Slices ![5, 0, 0] S1x64x64
  transposes_S32x64_S64x32_1_0 : S32x64.Transposes [1, 0] S64x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  dot_S524288x64_S64x64_S524288x64_1_0_0_1_n_n_wf : DotDims.WF S524288x64 S64x64 S524288x64 [1] [0] [0] [1] [] []
  dot_S524288x64_S64x32_S524288x32_1_0_0_1_n_n_wf : DotDims.WF S524288x64 S64x32 S524288x32 [1] [0] [0] [1] [] []

variable [Facts₀]

def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x64_S64x32_S524288x32_1_0_0_1_n_n : DotDims S524288x64 S64x32 S524288x32 where
  lhsContracting := [1]
  rhsContracting := [0]
  lhsNonContracting := [0]
  rhsNonContracting := [1]
  lhsBatch := []
  rhsBatch := []
  wf := dot_S524288x64_S64x32_S524288x32_1_0_0_1_n_n_wf

class Facts : Prop extends Facts₀ where

variable [Facts]
-- ==== Proof.BitsFrame.lean ====
/-
  The frame of the program `Kernel`: every weakly fair execution of @main terminates without a fault and leaves the
  four argument arrays as they were, and the result array ends at the contents the pipeline's proof data name.

  @main is a stretch of host operations — they build the six weight matrices (the first the transpose of T₀, the other
  five the transposes of the row-normalised Tᵢ scaled by (2i−1)/i), stack them, and transpose C — followed by one
  pipelined region over 64 grid points.  At a grid point the body loads a block of 8192 rows of z, the stacked weights,
  Cᵀ and β, computes the degree-six recurrence P₁ = z·W₁, Pᵢ = (z·Wᵢ)∘Pᵢ₋₁ − ((i−1)/i)·Pᵢ₋₂ with P₀ = 1, and stores
  P₆·Cᵀ + β over the whole output block.  So the output block after the body is one pure function of the four input
  blocks; the inputs stay in place; nothing else is touched.  The run is the library's frame run over that proof data.
-/
import proofs.«105419_j21371757265202_1_alg».proof.Proof.Gen.Kernel.Launch
import proofs.«105419_j21371757265202_1_alg».proof.Proof.Gen.Kernel.Skeleton
import proofs.«105419_j21371757265202_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents with every host operation applied. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array (each writes its own fresh result): the region finds z as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- The region finds T as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- The region finds C as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- The region finds β as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every pipelined array at the proof data's final contents and every other buffer as the
    region found it: z is a staged input, which the pipeline leaves as it was; T, C and β are staged by no window and no
    host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses: each the whole of its buffer -/

abbrev r0_0 : Rect S8192x64 := Rect.unit (s := S8192x64) ![0, 0] S8192x64.size inb_S8192x64_S8192x64_0_0
abbrev r0_1 : Rect S6x64x64 := Rect.unit (s := S6x64x64) ![0, 0, 0] S6x64x64.size inb_S6x64x64_S6x64x64_0_0_0
abbrev r0_2 : Rect S64x32 := Rect.unit (s := S64x32) ![0, 0] S64x32.size inb_S64x32_S64x32_0_0
abbrev r0_3 : Rect S1x32 := Rect.unit (s := S1x32) ![0, 0] S1x32.size inb_S1x32_S1x32_0_0
abbrev r0_4 : Rect S8192x32 := Rect.unit (s := S8192x32) ![0, 0] S8192x32.size inb_S8192x32_S8192x32_0_0

/-! ## What the body leaves in the output window's buffer -/

/-- The output block after the body: its one store, of P₆·Cᵀ + β computed from the four input blocks. -/
def out0_4 (x0 : Vec F S8192x64 .f32) (x1 : Vec F S6x64x64 .bf16) (x2 : Vec F S64x32 .bf16) (x3 : Vec F S1x32 .f32) : Vec F S8192x32 .f32 :=
  View.canon [⟨r0_4, k0_pay1 (k0_pay8 (View.ld x0 r0_0) (View.ld x1 r0_1)) (k0_pay9 (View.ld x0 r0_0) (View.ld x1 r0_1)) (View.ld x2 r0_2) (View.ld x3 r0_3)⟩]

/-- The store covers the whole block. -/
theorem cover0_4 (p0 : Vec F S8192x32 .f32) (y : S8192x32.Idx) :
    ∃ pc ∈ ([⟨r0_4, p0⟩] : List (View.Piece (Elt F) S8192x32 .f32)), y ∈ pc.1.set :=
  View.cover_of_tiled [⟨r0_4, p0⟩] S8192x32.size (by rfl) y

/-! ## The body's triple -/

set_option maxHeartbeats 1000000 in
/-- The body on whole staging buffers, the inputs' at contents `xW` and the output's at anything, runs to the
    continuation with the inputs' unchanged and the output's at `out0_4` of the inputs'. -/
theorem sound_kernel (c : Dev nD) (E : Set ℕ) (i : grid0.Coords) (arg1 : Memref sig .tc .vmem S8192x64 .f32) (harg1 : arg1.IsWhole) (arg2 : Memref sig .tc .vmem S6x64x64 .bf16) (harg2 : arg2.IsWhole) (arg3 : Memref sig .tc .vmem S64x32 .bf16) (harg3 : arg3.IsWhole) (arg4 : Memref sig .tc .vmem S1x32 .f32) (harg4 : arg4.IsWhole) (arg5 : Memref sig .tc .vmem S8192x32 .f32) (harg5 : arg5.IsWhole)
    (x0 : Vec F S8192x64 .f32) (x1 : Vec F S6x64x64 .bf16) (x2 : Vec F S64x32 .bf16) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__legendre_kernel i arg1 harg1 arg2 harg2 arg3 harg3 arg4 harg4 arg5 harg5) K := by
  simp only [cc0__legendre_kernel_eq_skeleton]; unfold cc0__legendre_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The arrays as the region finds them; after the body at point `t` each input's buffer at its block and the output's
    at `out0_4` of the four input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each pipelined array at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.IdealFrame.lean ====
/-
  The frame of the program `KernelIdeal`: every weakly fair execution of @main terminates without a fault and leaves the
  four argument arrays as they were, and the result array ends at the contents the pipeline's proof data name.

  @main is a stretch of host operations — they build the six weight matrices (the first the transpose of T₀, the other
  five the transposes of the row-normalised Tᵢ scaled by (2i−1)/i), stack them, and transpose C — followed by one
  pipelined region over 64 grid points.  At a grid point the body loads a block of 8192 rows of z, the stacked weights,
  Cᵀ and β, computes the degree-six recurrence P₁ = z·W₁, Pᵢ = (z·Wᵢ)∘Pᵢ₋₁ − ((i−1)/i)·Pᵢ₋₂ with P₀ = 1, and stores
  P₆·Cᵀ + β over the whole output block.  So the output block after the body is one pure function of the four input
  blocks; the inputs stay in place; nothing else is touched.  The run is the library's frame run over that proof data.
-/
import proofs.«105419_j21371757265202_1_alg».proof.Proof.Gen.KernelIdeal.Launch
import proofs.«105419_j21371757265202_1_alg».proof.Proof.Gen.KernelIdeal.Skeleton
import proofs.«105419_j21371757265202_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents with every host operation applied. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array (each writes its own fresh result): the region finds z as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- The region finds T as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- The region finds C as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- The region finds β as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every pipelined array at the proof data's final contents and every other buffer as the
    region found it: z is a staged input, which the pipeline leaves as it was; T, C and β are staged by no window and no
    host operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses: each the whole of its buffer -/

abbrev r0_0 : Rect S8192x64 := Rect.unit (s := S8192x64) ![0, 0] S8192x64.size inb_S8192x64_S8192x64_0_0
abbrev r0_1 : Rect S6x64x64 := Rect.unit (s := S6x64x64) ![0, 0, 0] S6x64x64.size inb_S6x64x64_S6x64x64_0_0_0
abbrev r0_2 : Rect S64x32 := Rect.unit (s := S64x32) ![0, 0] S64x32.size inb_S64x32_S64x32_0_0
abbrev r0_3 : Rect S1x32 := Rect.unit (s := S1x32) ![0, 0] S1x32.size inb_S1x32_S1x32_0_0
abbrev r0_4 : Rect S8192x32 := Rect.unit (s := S8192x32) ![0, 0] S8192x32.size inb_S8192x32_S8192x32_0_0

/-! ## What the body leaves in the output window's buffer -/

/-- The output block after the body: its one store, of P₆·Cᵀ + β computed from the four input blocks. -/
def out0_4 (x0 : Vec F S8192x64 .f32) (x1 : Vec F S6x64x64 .bf16) (x2 : Vec F S64x32 .bf16) (x3 : Vec F S1x32 .f32) : Vec F S8192x32 .f32 :=
  View.canon [⟨r0_4, k0_pay1 (k0_pay8 (View.ld x0 r0_0) (View.ld x1 r0_1)) (k0_pay9 (View.ld x0 r0_0) (View.ld x1 r0_1)) (View.ld x2 r0_2) (View.ld x3 r0_3)⟩]

/-- The store covers the whole block. -/
theorem cover0_4 (p0 : Vec F S8192x32 .f32) (y : S8192x32.Idx) :
    ∃ pc ∈ ([⟨r0_4, p0⟩] : List (View.Piece (Elt F) S8192x32 .f32)), y ∈ pc.1.set :=
  View.cover_of_tiled [⟨r0_4, p0⟩] S8192x32.size (by rfl) y

/-! ## The body's triple -/

set_option maxHeartbeats 1000000 in
/-- The body on whole staging buffers, the inputs' at contents `xW` and the output's at anything, runs to the
    continuation with the inputs' unchanged and the output's at `out0_4` of the inputs'. -/
theorem sound_kernel (c : Dev nD) (E : Set ℕ) (i : grid0.Coords) (arg1 : Memref sig .tc .vmem S8192x64 .f32) (harg1 : arg1.IsWhole) (arg2 : Memref sig .tc .vmem S6x64x64 .bf16) (harg2 : arg2.IsWhole) (arg3 : Memref sig .tc .vmem S64x32 .bf16) (harg3 : arg3.IsWhole) (arg4 : Memref sig .tc .vmem S1x32 .f32) (harg4 : arg4.IsWhole) (arg5 : Memref sig .tc .vmem S8192x32 .f32) (harg5 : arg5.IsWhole)
    (x0 : Vec F S8192x64 .f32) (x1 : Vec F S6x64x64 .bf16) (x2 : Vec F S64x32 .bf16) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__legendre_kernel i arg1 harg1 arg2 harg2 arg3 harg3 arg4 harg4 arg5 harg5) K := by
  simp only [cc0__legendre_kernel_eq_skeleton]; unfold cc0__legendre_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The arrays as the region finds them; after the body at point `t` each input's buffer at its block and the output's
    at `out0_4` of the four input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each pipelined array at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.Spec.lean ====
/-
  The row function both programs compute.  For one row `z` of the input (64 entries), six 64×64 weight matrices
  `W₀ … W₅`, a 64×32 matrix `Ct` and a bias `b` of 32 entries, on the extended reals:

    P₁ j = ∑ d, z d · W₀ d j
    Pᵢ j = (∑ d, z d · Wᵢ₋₁ d j) · Pᵢ₋₁ j − cᵢ · Pᵢ₋₂ j      (i = 2 … 6, with P₀ = 1)
    out o = (∑ k, P₆ k · Ct k o) + b o

  with `cᵢ` the single-precision literal nearest (i−1)/i, kept as the word both programs print.  No law of the
  extended reals is used beyond rewriting: the two programs spell this one expression.
-/
import Idealize.ShloMosaic.PureOps.Ideal

noncomputable section

namespace Cert.Legendre

open Idealize.ShloMosaic

/-- A single-precision literal as the extended real it denotes. -/
abbrev lit (w : BitVec 32) : EReal := Ideal.ofBits .f32 w

/-- One row times one weight matrix, at column `j`. -/
def dot64 (z : Fin 64 → EReal) (W : Fin 64 → Fin 64 → EReal) (j : Fin 64) : EReal := ∑ d : Fin 64, z d * W d j

def p1 (z : Fin 64 → EReal) (W : Fin 6 → Fin 64 → Fin 64 → EReal) (j : Fin 64) : EReal := dot64 z (W 0) j
/-- The second polynomial: the subtrahend is ½ · P₀ = ½ · 1, as both programs compute it. -/
def p2 (z : Fin 64 → EReal) (W : Fin 6 → Fin 64 → Fin 64 → EReal) (j : Fin 64) : EReal :=
  dot64 z (W 1) j * p1 z W j - lit 0x3F000000#32 * lit 0x3F800000#32
def p3 (z : Fin 64 → EReal) (W : Fin 6 → Fin 64 → Fin 64 → EReal) (j : Fin 64) : EReal :=
  dot64 z (W 2) j * p2 z W j - lit 0x3F2AAAAB#32 * p1 z W j
def p4 (z : Fin 64 → EReal) (W : Fin 6 → Fin 64 → Fin 64 → EReal) (j : Fin 64) : EReal :=
  dot64 z (W 3) j * p3 z W j - lit 0x3F400000#32 * p2 z W j
def p5 (z : Fin 64 → EReal) (W : Fin 6 → Fin 64 → Fin 64 → EReal) (j : Fin 64) : EReal :=
  dot64 z (W 4) j * p4 z W j - lit 0x3F4CCCCD#32 * p3 z W j
def p6 (z : Fin 64 → EReal) (W : Fin 6 → Fin 64 → Fin 64 → EReal) (j : Fin 64) : EReal :=
  dot64 z (W 5) j * p5 z W j - lit 0x3F555555#32 * p4 z W j

/-- The output row: the sixth polynomial projected by `Ct`, plus the bias. -/
def rowOut (z : Fin 64 → EReal) (W : Fin 6 → Fin 64 → Fin 64 → EReal) (Ct : Fin 64 → Fin 32 → EReal) (b : Fin 32 → EReal)
    (o : Fin 32) : EReal :=
  (∑ k : Fin 64, p6 z W k * Ct k o) + b o

end Cert.Legendre

end
-- ==== Proof.KernelPayload.lean ====
/-
  The kernel body's stored value, read at one entry.  The body's arithmetic is the row function of `Spec` applied to
  row `p` of the loaded block of z, the six weight matrices cut out of the loaded stack, the loaded Cᵀ and the loaded
  bias row: each matrix product into a zero accumulator is, on the extended reals, the plain sum over the contracted
  index; a narrowing of format is the identity; a slice of the stack followed by dropping its unit axis is the matrix
  `w` of the stack; the bias row is broadcast over the rows.
-/
import proofs.«105419_j21371757265202_1_alg».proof.Proof.Gen.KernelIdeal.Skeleton
import proofs.«105419_j21371757265202_1_alg».proof.Proof.LibPlainMatmul
import proofs.«105419_j21371757265202_1_alg».proof.Proof.Spec
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Legendre Cert.PlainMatmul

/-- Matrix `w` of the stack: the slice at offset `w` on the leading axis with that unit axis dropped. -/
theorem wslice (x1 : S6x64x64.Idx → EReal) (o : Nat) (w : Fin 6) (ho : w.val = o) (hs : S6x64x64.Slices ![o, 0, 0] S1x64x64)
    (d j : Fin 64) :
    shapeCast S64x64 (extractStridedSlice S1x64x64 ![o, 0, 0] (shapeCast S6x64x64 x1 shapeCasts_S6x64x64_S6x64x64) hs)
      shapeCasts_S1x64x64_S64x64 (ix2 d j) = x1 (ix3 w d j) := by
  rw [shapeCast_1ab_ab_apply, shapeCast_self]
  exact extractStridedSlice_apply _ _ hs (ix3 (0 : Fin 1) d j) (ix3 w d j) (fun a => by
    match a with
    | ⟨0, _⟩ => show w.val = o + 0; omega
    | ⟨1, _⟩ => show d.val = 0 + d.val; omega
    | ⟨2, _⟩ => show j.val = 0 + j.val; omega)

/-- The 8192×64 by 64×64 product into zeros, at an entry. -/
theorem mm64 (a : S8192x64.Idx → EReal) (b : S64x64.Idx → EReal) (p : Fin 8192) (j : Fin 64) :
    matmul (F := Ideal) (φ₁ := .bf16) (φ₂ := .bf16) dot_S8192x64_S64x64_S8192x64_1_0_0_1_n_n none a b (constant S8192x64 .f32 0x00000000#32) (ix2 p j)
      = ∑ k : Fin 64, a (ix2 p k) * b (ix2 k j) :=
  matmul_plain_zero_apply (M := 8192) (K := 64) (N := 64) a b none p j

/-- The 8192×64 by 64×32 product into zeros, at an entry. -/
theorem mm32 (a : S8192x64.Idx → EReal) (b : S64x32.Idx → EReal) (p : Fin 8192) (o : Fin 32) :
    matmul (F := Ideal) (φ₁ := .bf16) (φ₂ := .bf16) dot_S8192x64_S64x32_S8192x32_1_0_0_1_n_n none a b (constant S8192x32 .f32 0x00000000#32) (ix2 p o)
      = ∑ k : Fin 64, a (ix2 p k) * b (ix2 k o) :=
  matmul_plain_zero_apply (M := 8192) (K := 64) (N := 32) a b none p o

variable (x0 : Vec Ideal S8192x64 .f32) (x1 : Vec Ideal S6x64x64 .bf16)

/-- Row `p` of the loaded block. -/
abbrev zrow (p : Fin 8192) : Fin 64 → EReal := fun d => x0 (ix2 p d)
/-- The loaded stack as six matrices. -/
abbrev wmat : Fin 6 → Fin 64 → Fin 64 → EReal := fun w d j => x1 (ix3 w d j)

/-- A product of the block with matrix `w` of the stack, at an entry, is the row's `dot64` with that matrix. -/
theorem mmw (o : Nat) (w : Fin 6) (ho : w.val = o) (hs : S6x64x64.Slices ![o, 0, 0] S1x64x64) (p : Fin 8192) (j : Fin 64) :
    matmul (F := Ideal) dot_S8192x64_S64x64_S8192x64_1_0_0_1_n_n none (k0_pay2 x0)
      (shapeCast S64x64 (extractStridedSlice S1x64x64 ![o, 0, 0] (k0_pay3 x1) hs) shapeCasts_S1x64x64_S64x64)
      (constant S8192x64 .f32 0x00000000#32) (ix2 p j) = dot64 (zrow x0 p) (wmat x1 w) j := by
  rw [mm64]
  unfold dot64
  refine Finset.sum_congr rfl fun k _ => ?_
  unfold k0_pay3
  rw [wslice x1 o w ho hs k j]
  rfl

theorem pay4_apply (p : Fin 8192) (j : Fin 64) : k0_pay4 (F := Ideal) x0 x1 (ix2 p j) = p1 (zrow x0 p) (wmat x1) j := by
  unfold k0_pay4 p1
  exact mmw x0 x1 0 0 rfl _ p j

theorem pay5_apply (p : Fin 8192) (j : Fin 64) : k0_pay5 (F := Ideal) x0 x1 (ix2 p j) = p2 (zrow x0 p) (wmat x1) j := by
  unfold k0_pay5 p2
  show matmul (F := Ideal) _ none _ _ _ (ix2 p j) * k0_pay4 (F := Ideal) x0 x1 (ix2 p j) - _ = _
  rw [mmw x0 x1 1 1 rfl _ p j, pay4_apply]
  rfl

theorem pay6_apply (p : Fin 8192) (j : Fin 64) : k0_pay6 (F := Ideal) x0 x1 (ix2 p j) = p3 (zrow x0 p) (wmat x1) j := by
  unfold k0_pay6 p3
  show matmul (F := Ideal) _ none _ _ _ (ix2 p j) * k0_pay5 (F := Ideal) x0 x1 (ix2 p j) - _ * k0_pay4 (F := Ideal) x0 x1 (ix2 p j) = _
  rw [mmw x0 x1 2 2 rfl _ p j, pay5_apply, pay4_apply]
  rfl

theorem pay7_apply (p : Fin 8192) (j : Fin 64) : k0_pay7 (F := Ideal) x0 x1 (ix2 p j) = p4 (zrow x0 p) (wmat x1) j := by
  unfold k0_pay7 p4
  show matmul (F := Ideal) _ none _ _ _ (ix2 p j) * k0_pay6 (F := Ideal) x0 x1 (ix2 p j) - _ * k0_pay5 (F := Ideal) x0 x1 (ix2 p j) = _
  rw [mmw x0 x1 3 3 rfl _ p j, pay6_apply, pay5_apply]
  rfl

/-- The fifth polynomial sits inside the payload that multiplies it by the last product. -/
theorem pay8_apply (p : Fin 8192) (j : Fin 64) :
    k0_pay8 (F := Ideal) x0 x1 (ix2 p j) = dot64 (zrow x0 p) (wmat x1 5) j * p5 (zrow x0 p) (wmat x1) j := by
  unfold k0_pay8 p5
  show matmul (F := Ideal) _ none _ _ _ (ix2 p j) * (matmul (F := Ideal) _ none _ _ _ (ix2 p j) * k0_pay7 (F := Ideal) x0 x1 (ix2 p j) - _ * k0_pay6 (F := Ideal) x0 x1 (ix2 p j)) = _
  rw [mmw x0 x1 5 5 rfl _ p j, mmw x0 x1 4 4 rfl _ p j, pay7_apply, pay6_apply]
  rfl

theorem pay9_apply (p : Fin 8192) (j : Fin 64) :
    k0_pay9 (F := Ideal) x0 x1 (ix2 p j) = lit 0x3F555555#32 * p4 (zrow x0 p) (wmat x1) j := by
  unfold k0_pay9
  show _ * k0_pay7 (F := Ideal) x0 x1 (ix2 p j) = _
  rw [pay7_apply]
  rfl

/-- The stored value at entry `(p, o)`: the row function of row `p`. -/
theorem pay1_apply (x2 : Vec Ideal S64x32 .bf16) (x3 : Vec Ideal S1x32 .f32) (p : Fin 8192) (o : Fin 32) :
    k0_pay1 (F := Ideal) (k0_pay8 x0 x1) (k0_pay9 x0 x1) x2 x3 (ix2 p o)
      = rowOut (zrow x0 p) (wmat x1) (fun k o => x2 (ix2 k o)) (fun o => x3 (ix2 (0 : Fin 1) o)) o := by
  unfold k0_pay1 rowOut
  show matmul (F := Ideal) _ none _ _ _ (ix2 p o) + broadcastTo S8192x32 (shapeCast S1x32 x3 shapeCasts_S1x32_S1x32) broadcasts_S1x32_S8192x32 (ix2 p o) = _
  rw [mm32, broadcastTo_1b_ab_apply, shapeCast_self, shapeCast_self]
  congr 1
  refine Finset.sum_congr rfl fun k _ => ?_
  show (k0_pay8 (F := Ideal) x0 x1 (ix2 p k) - k0_pay9 (F := Ideal) x0 x1 (ix2 p k)) * x2 (ix2 k o) = _
  rw [pay8_apply, pay9_apply]
  rfl

end Cert.KernelIdeal.Pay

end
-- ==== Proof.KernelValue.lean ====
/-
  The idealized kernel program's result array after the run, as one function of the arrays the region finds.
  The grid's point `t` reads rows 8192·t … 8192·t + 8191 of z and the whole of the three small operands, and writes
  back the same rows of the result; what it writes at row `p` of its block is the row function (`Spec`) of row
  8192·t + p of z.  The 64 blocks tile the 524288 rows, so the whole result is that row function, row by row.
-/
import proofs.«105419_j21371757265202_1_alg».proof.Proof.IdealFrame
import proofs.«105419_j21371757265202_1_alg».proof.Proof.KernelPayload
import Idealize.ShloMosaic.Lib.Pipeline.Value

set_option maxRecDepth 16384

noncomputable section

namespace Cert.KernelIdeal.Val

open Cert.KernelIdeal Cert.KernelIdeal.Gen Cert.KernelIdeal.Frm Idealize.ShloMosaic Idealize.ShloMosaic.TcCoe Idealize.SL.Sem
open Idealize.ShloMosaic.ValueIdx Cert.Legendre
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result as a function of the region's four operand arrays: entry `(n, o)` is the row function of row `n`. -/
def GK (a0 : S524288x64.Idx → EReal) (a1 : S6x64x64.Idx → EReal) (a2 : S64x32.Idx → EReal) (a3 : S1x32.Idx → EReal) :
    S524288x32.Idx → EReal :=
  fun i => rowOut (fun d => a0 (ix2 (i 0) d)) (fun w d j => a1 (ix3 w d j)) (fun k o => a2 (ix2 k o))
    (fun o => a3 (ix2 (0 : Fin 1) o)) (i 1)

/-- The printed index maps over the grid: the z window and the result window move together along the rows, one block
    per point; every other block index is zero. -/
theorem idx_facts : ∀ t : Fin cfg0.N, win0_0.index t (0 : Fin 2) = t.val ∧ win0_0.index t (1 : Fin 2) = 0
    ∧ win0_4.index t (0 : Fin 2) = t.val ∧ win0_4.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `p` of point `t`'s block of z is row 8192·t + p of z. -/
theorem blk0_read (c : Dev nD) (t : Fin cfg0.N) (p : Fin 8192) (d : Fin 64) (n : Fin 524288) (hn : n.val = t.val * 8192 + p.val) :
    iblk m c 0 t (ix2 p d) = V m c main_arg0 (ix2 n d) := by
  show V m c main_arg0 (((cfg0.win 0).blk t).view.emb (ix2 p d)) = V m c main_arg0 (ix2 n d)
  have h : ((cfg0.win 0).blk t).view.emb (ix2 p d) = ix2 n d := by
    obtain ⟨e0, e1, -⟩ := idx_facts t
    funext a; apply Fin.ext
    match a with
    | ⟨0, _⟩ => show win0_0.index t (0 : Fin 2) * 8192 + 1 * p.val = n.val; omega
    | ⟨1, _⟩ => show win0_0.index t (1 : Fin 2) * 64 + 1 * d.val = d.val; omega
  rw [h]

/-- The stack's block is the whole stack. -/
theorem blk1_read (c : Dev nD) (t : Fin cfg0.N) (w : Fin 6) (d j : Fin 64) :
    iblk m c 1 t (ix3 w d j) = V m c main_v55 (ix3 w d j) := by
  show V m c main_v55 (((cfg0.win 1).blk t).view.emb (ix3 w d j)) = V m c main_v55 (ix3 w d j)
  have h : ((cfg0.win 1).blk t).view.emb (ix3 w d j) = ix3 w d j := by
    obtain ⟨-, -, -, -, e0, e1, e2, -⟩ := idx_facts t
    funext a; apply Fin.ext
    match a with
    | ⟨0, _⟩ => show win0_1.index t (0 : Fin 3) * 6 + 1 * w.val = w.val; omega
    | ⟨1, _⟩ => show win0_1.index t (1 : Fin 3) * 64 + 1 * d.val = d.val; omega
    | ⟨2, _⟩ => show win0_1.index t (2 : Fin 3) * 64 + 1 * j.val = j.val; omega
  rw [h]

theorem blk2_read (c : Dev nD) (t : Fin cfg0.N) (k : Fin 64) (o : Fin 32) :
    iblk m c 2 t (ix2 k o) = V m c main_v57 (ix2 k o) := by
  show V m c main_v57 (((cfg0.win 2).blk t).view.emb (ix2 k o)) = V m c main_v57 (ix2 k o)
  have h : ((cfg0.win 2).blk t).view.emb (ix2 k o) = ix2 k o := by
    obtain ⟨-, -, -, -, -, -, -, e0, e1, -⟩ := idx_facts t
    funext a; apply Fin.ext
    match a with
    | ⟨0, _⟩ => show win0_2.index t (0 : Fin 2) * 64 + 1 * k.val = k.val; omega
    | ⟨1, _⟩ => show win0_2.index t (1 : Fin 2) * 32 + 1 * o.val = o.val; omega
  rw [h]

theorem blk3_read (c : Dev nD) (t : Fin cfg0.N) (u : Fin 1) (o : Fin 32) :
    iblk m c 3 t (ix2 u o) = V m c main_v58 (ix2 u o) := by
  show V m c main_v58 (((cfg0.win 3).blk t).view.emb (ix2 u o)) = V m c main_v58 (ix2 u o)
  have h : ((cfg0.win 3).blk t).view.emb (ix2 u o) = ix2 u o := by
    obtain ⟨-, -, -, -, -, -, -, -, -, e0, e1⟩ := idx_facts t
    funext a; apply Fin.ext
    match a with
    | ⟨0, _⟩ => show win0_3.index t (0 : Fin 2) * 1 + 1 * u.val = u.val; omega
    | ⟨1, _⟩ => show win0_3.index t (1 : Fin 2) * 32 + 1 * o.val = o.val; omega
  rw [h]

/-- Entry `(p, o)` of point `t`'s block of the result is entry `(8192·t + p, o)` of the result. -/
theorem blk4_emb (t : Fin cfg0.N) (p : Fin 8192) (o : Fin 32) (n : Fin 524288) (hn : n.val = t.val * 8192 + p.val) :
    ((cfg0.win 4).blk t).view.emb (ix2 p o) = ix2 n o := by
  obtain ⟨-, -, e0, e1, -⟩ := idx_facts t
  funext a; apply Fin.ext
  match a with
  | ⟨0, _⟩ => show win0_4.index t (0 : Fin 2) * 8192 + 1 * p.val = n.val; omega
  | ⟨1, _⟩ => show win0_4.index t (1 : Fin 2) * 32 + 1 * o.val = o.val; omega

/-- Over any four blocks and four arrays that agree where the row function reads them, the stored value at entry
    `(p, o)` of the block is `GK` of the arrays at entry `(n, o)`. -/
theorem row_eq (x0 : Vec Ideal S8192x64 .f32) (x1 : Vec Ideal S6x64x64 .bf16) (x2 : Vec Ideal S64x32 .bf16) (x3 : Vec Ideal S1x32 .f32)
    (a0 : S524288x64.Idx → EReal) (a1 : S6x64x64.Idx → EReal) (a2 : S64x32.Idx → EReal) (a3 : S1x32.Idx → EReal)
    (p : Fin 8192) (o : Fin 32) (n : Fin 524288)
    (h0 : ∀ d, x0 (ix2 p d) = a0 (ix2 n d)) (h1 : ∀ w d j, x1 (ix3 w d j) = a1 (ix3 w d j))
    (h2 : ∀ k o, x2 (ix2 k o) = a2 (ix2 k o)) (h3 : ∀ o, x3 (ix2 (0 : Fin 1) o) = a3 (ix2 (0 : Fin 1) o)) :
    k0_pay1 (F := Ideal) (k0_pay8 x0 x1) (k0_pay9 x0 x1) x2 x3 (ix2 p o) = GK a0 a1 a2 a3 (ix2 n o) := by
  rw [Pay.pay1_apply]
  unfold GK
  show rowOut _ _ _ _ o = rowOut _ _ _ _ o
  have e0 : Pay.zrow x0 p = fun d => a0 (ix2 n d) := funext h0
  have e1 : Pay.wmat x1 = fun w d j => a1 (ix3 w d j) := funext fun w => funext fun d => funext fun j => h1 w d j
  have e2 : (fun k o => x2 (ix2 k o)) = fun k o => a2 (ix2 k o) := funext fun k => funext fun o => h2 k o
  have e3 : (fun o => x3 (ix2 (0 : Fin 1) o)) = fun o => a3 (ix2 (0 : Fin 1) o) := funext h3
  rw [e0, e1, e2, e3]

/-- What point `t` writes back is block `t` of `GK` of the arrays the region finds. -/
theorem flushed4_eq (c : Dev nD) (t : Fin cfg0.N) :
    (dats m 0 c).flushed 4 t = ((cfg0.win 4).blk t).view.read (Elt Ideal)
      (GK (V m c main_arg0) (V m c main_v55) (V m c main_v57) (V m c main_v58)) := by
  show (cfg0.win 4).cut (grid0.coords t) ((dats m 0 c).after 4 t) = _
  rw [after0_4]
  unfold out0_4
  rw [View.canon_unit_zero hz2]
  simp only [View.ld_unit_zero (S := S8192x64) hz2, View.ld_unit_zero (S := S6x64x64) hz3, View.ld_unit_zero (S := S64x32) hz2,
    View.ld_unit_zero (S := S1x32) hz2]
  funext y
  obtain ⟨p, o, rfl⟩ : ∃ (p : Fin 8192) (o : Fin 32), y = ix2 p o := ⟨y 0, y 1, eq_ix2 y⟩
  have ht : t.val < 64 := Nat.lt_of_lt_of_eq t.isLt N_0
  have hn : t.val * 8192 + p.val < 524288 := by have := p.isLt; omega
  have hemb := blk4_emb t p o ⟨t.val * 8192 + p.val, hn⟩ rfl
  refine Eq.trans ?_ (congrArg (GK (V m c main_arg0) (V m c main_v55) (V m c main_v57) (V m c main_v58)) hemb.symm)
  exact row_eq (iblk m c 0 t) (iblk m c 1 t) (iblk m c 2 t) (iblk m c 3 t) (V m c main_arg0) (V m c main_v55) (V m c main_v57) (V m c main_v58)
    p o ⟨t.val * 8192 + p.val, hn⟩ (fun d => blk0_read m c t p d ⟨t.val * 8192 + p.val, hn⟩ rfl) (fun w d j => blk1_read m c t w d j)
    (fun k o' => blk2_read m c t k o') (fun o' => blk3_read m c t 0 o')

/-- An index of the result is in point `t`'s block iff each coordinate is in the block's range on its axis. -/
theorem mem_blk4 (t : Fin cfg0.N) (i : S524288x32.Idx) :
    i ∈ ((cfg0.win 4).blk t).view.set ↔ ∀ a : Fin 2, win0_4.index t a * S8192x32.size a ≤ (i a).val ∧ (i a).val < win0_4.index t a * S8192x32.size a + S8192x32.size a := by
  show i ∈ ((View.whole main_v59).slice (win0_4.rect t)).set ↔ _
  rw [View.set_slice_whole, Rect.mem_set_unit]
  exact Iff.rfl

/-- Every row of the result is in the block of the point that is its quotient by 8192. -/
theorem cover4 (i : S524288x32.Idx) : ∃ t : Fin cfg0.N, (cfg0.win 4).flush t = true ∧ i ∈ ((cfg0.win 4).blk t).view.set := by
  have hi0 : (i 0).val < 524288 := (i 0).isLt
  have hi1 : (i 1).val < 32 := (i 1).isLt
  have hN : (i 0).val / 8192 < cfg0.N := by rw [show cfg0.N = 64 from N_0]; omega
  refine ⟨⟨(i 0).val / 8192, hN⟩, flush0_4 _, ?_⟩
  rw [mem_blk4]
  obtain ⟨-, -, e0, e1, -⟩ := idx_facts ⟨(i 0).val / 8192, hN⟩
  intro a
  match a with
  | ⟨0, _⟩ => show win0_4.index ⟨(i 0).val / 8192, hN⟩ (0 : Fin 2) * 8192 ≤ (i 0).val ∧ (i 0).val < win0_4.index ⟨(i 0).val / 8192, hN⟩ (0 : Fin 2) * 8192 + 8192; rw [e0]; show (i 0).val / 8192 * 8192 ≤ _ ∧ _ < (i 0).val / 8192 * 8192 + 8192; omega
  | ⟨1, _⟩ => show win0_4.index ⟨(i 0).val / 8192, hN⟩ (1 : Fin 2) * 32 ≤ (i 1).val ∧ (i 1).val < win0_4.index ⟨(i 0).val / 8192, hN⟩ (1 : Fin 2) * 32 + 32; rw [e1]; omega

/-- The result array after the run. -/
theorem final4 (c : Dev nD) : (dats m 0 c).arrAt 4 cfg0.N = GK (V m c main_arg0) (V m c main_v55) (V m c main_v57) (V m c main_v58) :=
  (dats m 0 c).arrAt_eq_of_cover 4 _ (fun t _ => flushed4_eq m c t) cover4

/-- The run, read: the result at `GK` of the arrays the region finds, the four arguments unchanged. -/
theorem run : θ_run defs (onTc (τ := τ) (main (F := Ideal))) ⟨m, fun _ => 0, ρ⟩ fun r => ∀ c : Dev nD,
      r.2.mem ((c : Thread nD τ).loc main_v59) = GK (V m c main_arg0) (V m c main_v55) (V m c main_v57) (V m c main_v58)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Val

end
-- ==== Proof.KernelHost.lean ====
/-
  The three operands of the region that host operations write, read at an entry in terms of the arguments.
  The stacked weights are the concatenation along a new leading axis of six 64×64 matrices built from T: the transpose of
  T₀, and for i = 1 … 5 the transpose of Tᵢ with each row divided by its sum, scaled by a literal; narrowing the stack to
  a shorter format is the identity on the extended reals, so entry `(w, d, j)` of the stack is entry `(d, j)` of matrix
  `w`.  The second operand is C transposed, the third β as one row.
-/
import proofs.«105419_j21371757265202_1_alg».proof.Proof.IdealFrame
import Idealize.ShloMosaic.Lib.StableHlo.Run
import Idealize.ShloMosaic.Lib.Pipeline.Value
import Idealize.ShloMosaic.Lib.ValueLayout

noncomputable section

namespace Cert.KernelIdeal.Host

open Cert.KernelIdeal Cert.KernelIdeal.Gen Cert.KernelIdeal.Frm Idealize.ShloMosaic Idealize.ShloMosaic.TcCoe Idealize.SL.Sem
open Idealize.ShloMosaic.StableHlo Idealize.ShloMosaic.ValueIdx

/-- The first weight matrix: T₀ transposed. -/
def w0 (T : FVec Ideal S6x64x64 .f32) : FVec Ideal S64x64 .f32 :=
  transpose S64x64 [1, 0] (shapeCast S64x64 (extractStridedSlice S1x64x64 ![0, 0, 0] T slices_S6x64x64_S1x64x64_0_0_0) shapeCasts_S1x64x64_S64x64)
    transposes_S64x64_S64x64_1_0

/-- A later weight matrix: the slice at offset `o`, each row divided by its sum, transposed, scaled by the literal `cw`. -/
def wn (T : FVec Ideal S6x64x64 .f32) (o : Nat) (hs : S6x64x64.Slices ![o, 0, 0] S1x64x64) (cw : BitVec 32) : FVec Ideal S64x64 .f32 :=
  mulf (broadcastInDim S64x64 ![] bcast_S_S64x64 (constant (F := Ideal) S_ .f32 cw))
    (transpose S64x64 [1, 0]
      (Host.divf (shapeCast S64x64 (extractStridedSlice S1x64x64 ![o, 0, 0] T hs) shapeCasts_S1x64x64_S64x64)
        (broadcastInDim S64x64 ![0, 1] bcast_S64x1_S64x64_0_1 (broadcastInDim S64x1 ![0] bcast_S64_S64x1_0
          (Host.reduceAdd (shapeCast S64x64 (extractStridedSlice S1x64x64 ![o, 0, 0] T hs) shapeCasts_S1x64x64_S64x64)
            (constant (F := Ideal) S_ .f32 0x00000000#32) reducesTo_S64x64_S64_d1 h_S_))))
      transposes_S64x64_S64x64_1_0)

/-- The six weight matrices. -/
def wK (T : FVec Ideal S6x64x64 .f32) : Fin 6 → FVec Ideal S64x64 .f32 :=
  ![w0 T, wn T 1 slices_S6x64x64_S1x64x64_1_0_0 0x3FC00000#32, wn T 2 slices_S6x64x64_S1x64x64_2_0_0 0x3FD55555#32,
    wn T 3 slices_S6x64x64_S1x64x64_3_0_0 0x3FE00000#32, wn T 4 slices_S6x64x64_S1x64x64_4_0_0 0x3FE66666#32,
    wn T 5 slices_S6x64x64_S1x64x64_5_0_0 0x3FEAAAAB#32]

/-- Six pieces with a unit leading axis, concatenated along it, read at entry `(w, d, j)`: piece `w` at `(0, d, j)`. -/
theorem stack6_apply (B : Fin 6 → S1x64x64.Idx → EReal)
    (h : Shape.Concatenates [S1x64x64, S1x64x64, S1x64x64, S1x64x64, S1x64x64, S1x64x64] S6x64x64 0) (w : Fin 6) (d j : Fin 64) :
    concatenate S6x64x64 0 [⟨S1x64x64, B 0⟩, ⟨S1x64x64, B 1⟩, ⟨S1x64x64, B 2⟩, ⟨S1x64x64, B 3⟩, ⟨S1x64x64, B 4⟩, ⟨S1x64x64, B 5⟩] h (ix3 w d j)
      = B w (ix3 (0 : Fin 1) d j) := by
  have hi : ∀ (k : Fin 6) (b : Fin S1x64x64.rank), b.cast (rfl : S1x64x64.rank = S6x64x64.rank) ≠ (0 : Fin 3) →
      ((ix3 (0 : Fin 1) d j : S1x64x64.Idx) b).val = ((ix3 k d j : S6x64x64.Idx) (b.cast rfl)).val := fun k b hb => by
    match b with
    | ⟨0, _⟩ => exact absurd rfl hb
    | ⟨1, _⟩ => rfl
    | ⟨2, _⟩ => rfl
  match w with
  | ⟨0, _⟩ => exact concatenate_apply_piece (t := S6x64x64) (0 : Fin 3) [⟨S1x64x64, B 0⟩, ⟨S1x64x64, B 1⟩, ⟨S1x64x64, B 2⟩, ⟨S1x64x64, B 3⟩, ⟨S1x64x64, B 4⟩, ⟨S1x64x64, B 5⟩] h (ix3 (0 : Fin 6) d j) 0 (show 0 < 6 by omega) S1x64x64 (B 0) rfl rfl 0 rfl (ix3 (0 : Fin 1) d j) (hi 0) rfl
  | ⟨1, _⟩ => exact concatenate_apply_piece (t := S6x64x64) (0 : Fin 3) [⟨S1x64x64, B 0⟩, ⟨S1x64x64, B 1⟩, ⟨S1x64x64, B 2⟩, ⟨S1x64x64, B 3⟩, ⟨S1x64x64, B 4⟩, ⟨S1x64x64, B 5⟩] h (ix3 (1 : Fin 6) d j) 1 (show 1 < 6 by omega) S1x64x64 (B 1) rfl rfl 1 rfl (ix3 (0 : Fin 1) d j) (hi 1) rfl
  | ⟨2, _⟩ => exact concatenate_apply_piece (t := S6x64x64) (0 : Fin 3) [⟨S1x64x64, B 0⟩, ⟨S1x64x64, B 1⟩, ⟨S1x64x64, B 2⟩, ⟨S1x64x64, B 3⟩, ⟨S1x64x64, B 4⟩, ⟨S1x64x64, B 5⟩] h (ix3 (2 : Fin 6) d j) 2 (show 2 < 6 by omega) S1x64x64 (B 2) rfl rfl 2 rfl (ix3 (0 : Fin 1) d j) (hi 2) rfl
  | ⟨3, _⟩ => exact concatenate_apply_piece (t := S6x64x64) (0 : Fin 3) [⟨S1x64x64, B 0⟩, ⟨S1x64x64, B 1⟩, ⟨S1x64x64, B 2⟩, ⟨S1x64x64, B 3⟩, ⟨S1x64x64, B 4⟩, ⟨S1x64x64, B 5⟩] h (ix3 (3 : Fin 6) d j) 3 (show 3 < 6 by omega) S1x64x64 (B 3) rfl rfl 3 rfl (ix3 (0 : Fin 1) d j) (hi 3) rfl
  | ⟨4, _⟩ => exact concatenate_apply_piece (t := S6x64x64) (0 : Fin 3) [⟨S1x64x64, B 0⟩, ⟨S1x64x64, B 1⟩, ⟨S1x64x64, B 2⟩, ⟨S1x64x64, B 3⟩, ⟨S1x64x64, B 4⟩, ⟨S1x64x64, B 5⟩] h (ix3 (4 : Fin 6) d j) 4 (show 4 < 6 by omega) S1x64x64 (B 4) rfl rfl 4 rfl (ix3 (0 : Fin 1) d j) (hi 4) rfl
  | ⟨5, _⟩ => exact concatenate_apply_piece (t := S6x64x64) (0 : Fin 3) [⟨S1x64x64, B 0⟩, ⟨S1x64x64, B 1⟩, ⟨S1x64x64, B 2⟩, ⟨S1x64x64, B 3⟩, ⟨S1x64x64, B 4⟩, ⟨S1x64x64, B 5⟩] h (ix3 (5 : Fin 6) d j) 5 (show 5 < 6 by omega) S1x64x64 (B 5) rfl rfl 5 rfl (ix3 (0 : Fin 1) d j) (hi 5) rfl

variable (m : (ℓ : Loc nD τ sig) → Buf (Elt Ideal) ℓ)

/-- Matrix `n` with a unit leading axis. -/
abbrev piece (T : FVec Ideal S6x64x64 .f32) (n : Fin 6) : S1x64x64.Idx → EReal :=
  broadcastInDim S1x64x64 ![1, 2] bcast_S64x64_S1x64x64_1_2 (wK T n)

/-- The stack the region finds: the six matrices, each given a unit leading axis, concatenated along it. -/
theorem v55_eq (c : Dev nD) : (V m c main_v55 : S6x64x64.Idx → EReal)
    = truncf (F := Ideal) (φ := .f32) .bf16 (concatenate S6x64x64 0
        [⟨S1x64x64, piece (m ((c : Thread nD τ).loc main_arg1)) 0⟩, ⟨S1x64x64, piece (m ((c : Thread nD τ).loc main_arg1)) 1⟩,
         ⟨S1x64x64, piece (m ((c : Thread nD τ).loc main_arg1)) 2⟩, ⟨S1x64x64, piece (m ((c : Thread nD τ).loc main_arg1)) 3⟩,
         ⟨S1x64x64, piece (m ((c : Thread nD τ).loc main_arg1)) 4⟩, ⟨S1x64x64, piece (m ((c : Thread nD τ).loc main_arg1)) 5⟩]
        concatenates_S1x64x64_S1x64x64_S1x64x64_S1x64x64_S1x64x64_S1x64x64_S6x64x64_d0) bitsLt_bf16_f32 := by
  dsimp only [V, hostOps0]; after_results <;> rfl

theorem v57_eq (c : Dev nD) : (V m c main_v57 : S64x32.Idx → EReal)
    = truncf (F := Ideal) (φ := .f32) .bf16 (transpose S64x32 [1, 0] (m ((c : Thread nD τ).loc main_arg2)) transposes_S32x64_S64x32_1_0) bitsLt_bf16_f32 := by
  dsimp only [V, hostOps0]; after_results <;> rfl

theorem v58_eq (c : Dev nD) : (V m c main_v58 : S1x32.Idx → EReal) = shapeCast S1x32 (m ((c : Thread nD τ).loc main_arg3)) shapeCasts_S32_S1x32 := by
  dsimp only [V, hostOps0]; after_results <;> rfl

/-- Entry `(w, d, j)` of the stack is entry `(d, j)` of matrix `w`. -/
theorem v55_apply (c : Dev nD) (w : Fin 6) (d j : Fin 64) :
    V m c main_v55 (ix3 w d j) = wK (m ((c : Thread nD τ).loc main_arg1)) w (ix2 d j) := by
  rw [v55_eq]
  refine (stack6_apply (piece (m ((c : Thread nD τ).loc main_arg1))) concatenates_S1x64x64_S1x64x64_S1x64x64_S1x64x64_S1x64x64_S1x64x64_S6x64x64_d0 w d j).trans ?_
  exact broadcastInDim_apply _ bcast_S64x64_S1x64x64_1_2 _ (ix3 (0 : Fin 1) d j) (ix2 d j) (fun a => by
    match a with
    | ⟨0, _⟩ => rfl
    | ⟨1, _⟩ => rfl)

/-- The second operand is C transposed. -/
theorem v57_apply (c : Dev nD) (k : Fin 64) (o : Fin 32) :
    V m c main_v57 (ix2 k o) = m ((c : Thread nD τ).loc main_arg2) (ix2 o k) := by
  rw [v57_eq]
  show transpose S64x32 [1, 0] (m ((c : Thread nD τ).loc main_arg2)) transposes_S32x64_S64x32_1_0 (ix2 k o) = _
  exact transpose_apply [1, 0] _ transposes_S32x64_S64x32_1_0 (ix2 k o) (ix2 o k) (fun b => by
    match b with
    | ⟨0, _⟩ => rfl
    | ⟨1, _⟩ => rfl)

/-- The third operand is β as one row. -/
theorem v58_apply (c : Dev nD) (u : Fin 1) (o : Fin 32) :
    V m c main_v58 (ix2 u o) = m ((c : Thread nD τ).loc main_arg3) (ix1 o) := by
  rw [v58_eq]
  exact shapeCast_a_1a_apply _ shapeCasts_S32_S1x32 u o

end Cert.KernelIdeal.Host

end
-- ==== Proof.RefValue.lean ====
/-
  The reference program's result, read at one entry.  Its @main computes, for the whole array z at once, the same
  recurrence as `Spec`: each `dot_general` with one contracted axis is, on the extended reals, the plain sum over that
  axis, so entry `(n, o)` of the result is the row function of row `n` of z, of the six weight matrices the host
  operations build from T, of C transposed and of β.
-/
import proofs.«105419_j21371757265202_1_alg».proof.Proof.Gen.ReferenceIdeal.Read
import proofs.«105419_j21371757265202_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Legendre

/-- The six weight matrices as the host operations build them from T: the transpose of T₀, and for i ≥ 1 the transpose
    of Tᵢ with each row divided by its sum, scaled by the literal (2i+1)/(i+1). -/
def wstack (T : S6x64x64.Idx → EReal) : Fin 6 → S64x64.Idx → EReal :=
  ![val_main_v3 (F := Ideal) T, val_main_v13 (F := Ideal) T, val_main_v29 (F := Ideal) T, val_main_v43 (F := Ideal) T,
    val_main_v57 (F := Ideal) T, val_main_v71 (F := Ideal) T]

/-- The same, entry by entry. -/
def wref (T : S6x64x64.Idx → EReal) : Fin 6 → Fin 64 → Fin 64 → EReal := fun w d j => wstack T w (ix2 d j)

variable (z : S524288x64.Idx → EReal) (T : S6x64x64.Idx → EReal)

/-- Row `n` of z. -/
abbrev zrow (n : Fin 524288) : Fin 64 → EReal := fun d => z (ix2 n d)

/-- The left operand's index of a product at output `(n, j)` and contraction coordinate `k` is `(n, k)`. -/
theorem lidx_eq (n : Fin 524288) (j k : Fin 64) : lidx_main_v4 (ix2 n j) k = ix2 n k :=
  funext fun a => by match a with | ⟨0, _⟩ => rfl | ⟨1, _⟩ => rfl
/-- The right operand's is `(k, j)`. -/
theorem ridx_eq (n : Fin 524288) (j k : Fin 64) : ridx_main_v4 (ix2 n j) k = ix2 k j :=
  funext fun a => by match a with | ⟨0, _⟩ => rfl | ⟨1, _⟩ => rfl

/-- A sum over the contracted axis, its operands read where a product's index maps say, is the row's `dot64`. -/
theorem sum_dot (Wv : S64x64.Idx → EReal) (li : Fin 64 → S524288x64.Idx) (ri : Fin 64 → S64x64.Idx) (n : Fin 524288) (j : Fin 64)
    (hl : ∀ k, li k = ix2 n k) (hr : ∀ k, ri k = ix2 k j) :
    ∑ k : Fin 64, z (li k) * Wv (ri k) = dot64 (zrow z n) (fun d j => Wv (ix2 d j)) j := by
  unfold dot64
  refine Finset.sum_congr rfl fun k _ => ?_
  rw [hl, hr]

theorem v4_apply (n : Fin 524288) (j : Fin 64) : val_main_v4 (F := Ideal) z T (ix2 n j) = p1 (zrow z n) (wref T) j :=
  (val_main_v4_apply z T (ix2 n j)).trans (sum_dot z _ _ _ n j (fun k => lidx_eq n j k) (fun k => ridx_eq n j k))

theorem v14_apply (n : Fin 524288) (j : Fin 64) : val_main_v14 (F := Ideal) z T (ix2 n j) = dot64 (zrow z n) (wref T 1) j :=
  (val_main_v14_apply z T (ix2 n j)).trans (sum_dot z _ _ _ n j (fun k => lidx_eq n j k) (fun k => ridx_eq n j k))
theorem v30_apply (n : Fin 524288) (j : Fin 64) : val_main_v30 (F := Ideal) z T (ix2 n j) = dot64 (zrow z n) (wref T 2) j :=
  (val_main_v30_apply z T (ix2 n j)).trans (sum_dot z _ _ _ n j (fun k => lidx_eq n j k) (fun k => ridx_eq n j k))
theorem v44_apply (n : Fin 524288) (j : Fin 64) : val_main_v44 (F := Ideal) z T (ix2 n j) = dot64 (zrow z n) (wref T 3) j :=
  (val_main_v44_apply z T (ix2 n j)).trans (sum_dot z _ _ _ n j (fun k => lidx_eq n j k) (fun k => ridx_eq n j k))
theorem v58_apply (n : Fin 524288) (j : Fin 64) : val_main_v58 (F := Ideal) z T (ix2 n j) = dot64 (zrow z n) (wref T 4) j :=
  (val_main_v58_apply z T (ix2 n j)).trans (sum_dot z _ _ _ n j (fun k => lidx_eq n j k) (fun k => ridx_eq n j k))
theorem v72_apply (n : Fin 524288) (j : Fin 64) : val_main_v72 (F := Ideal) z T (ix2 n j) = dot64 (zrow z n) (wref T 5) j :=
  (val_main_v72_apply z T (ix2 n j)).trans (sum_dot z _ _ _ n j (fun k => lidx_eq n j k) (fun k => ridx_eq n j k))

/-- The broadcast of ½ · 1 over the array, at any entry. -/
theorem v19_apply (i : S524288x64.Idx) : val_main_v19 (F := Ideal) i = lit 0x3F000000#32 * lit 0x3F800000#32 := by
  rw [val_main_v19_apply, val_main_v18_apply, val_main_v17_apply, val_main_v16_apply, val_main_v0_apply,
    val_main_cst_2_apply, val_main_cst_apply]
  rfl

theorem v20_apply (n : Fin 524288) (j : Fin 64) : val_main_v20 (F := Ideal) z T (ix2 n j) = p2 (zrow z n) (wref T) j := by
  rw [val_main_v20_apply, val_main_v15_apply, v14_apply, v4_apply, v19_apply]
  rfl

theorem v34_apply (n : Fin 524288) (j : Fin 64) : val_main_v34 (F := Ideal) z T (ix2 n j) = p3 (zrow z n) (wref T) j := by
  rw [val_main_v34_apply, val_main_v31_apply, val_main_v33_apply, v30_apply, v20_apply, v4_apply, val_main_v32_apply, val_main_cst_5_apply]
  rfl

theorem v48_apply (n : Fin 524288) (j : Fin 64) : val_main_v48 (F := Ideal) z T (ix2 n j) = p4 (zrow z n) (wref T) j := by
  rw [val_main_v48_apply, val_main_v45_apply, val_main_v47_apply, v44_apply, v34_apply, v20_apply, val_main_v46_apply, val_main_cst_8_apply]
  rfl

theorem v62_apply (n : Fin 524288) (j : Fin 64) : val_main_v62 (F := Ideal) z T (ix2 n j) = p5 (zrow z n) (wref T) j := by
  rw [val_main_v62_apply, val_main_v59_apply, val_main_v61_apply, v58_apply, v48_apply, v34_apply, val_main_v60_apply, val_main_cst_11_apply]
  rfl

theorem v76_apply (n : Fin 524288) (j : Fin 64) : val_main_v76 (F := Ideal) z T (ix2 n j) = p6 (zrow z n) (wref T) j := by
  rw [val_main_v76_apply, val_main_v73_apply, val_main_v75_apply, v72_apply, v62_apply, v48_apply, val_main_v74_apply, val_main_cst_14_apply]
  rfl

/-- The reference's result at entry `(n, o)`. -/
theorem v81_apply (C : S32x64.Idx → EReal) (β : S32.Idx → EReal) (n : Fin 524288) (o : Fin 32) :
    val_main_v81 (F := Ideal) z T C β (ix2 n o)
      = rowOut (zrow z n) (wref T) (fun k o => C (ix2 o k)) (fun o => β (ix1 o)) o := by
  rw [val_main_v81_apply, val_main_v78_apply, val_main_v80_apply, val_main_v79_apply]
  unfold rowOut
  show (∑ k : Fin 64, _) + _ = _
  congr 1
  · refine Finset.sum_congr rfl fun k _ => ?_
    have el : lidx_main_v78 (ix2 n o) k = ix2 n k := funext fun a => by match a with | ⟨0, _⟩ => rfl | ⟨1, _⟩ => rfl
    have er : idx_main_v77 (ridx_main_v78 (ix2 n o) k) = ix2 o k := funext fun a => by match a with | ⟨0, _⟩ => rfl | ⟨1, _⟩ => rfl
    rw [el, v76_apply, val_main_v77_apply, er]
  · exact congrArg β (funext fun a => by match a with | ⟨0, _⟩ => rfl)

end Cert.ReferenceIdeal.RefValue

end
-- ==== Proof.Bridge.lean ====
/-
  The two programs compute one function.  The idealized kernel program's result array is, entry by entry, the row
  function of `Spec` applied to the arrays its region finds; the reference's result is the same row function of the
  arguments.  The arrays the region finds are the arguments (z), and, written by the host operations, the six weight
  matrices — the same expressions of T on both sides —, C transposed and β as a row.  So the two results agree entry by
  entry, with no law of the extended reals used beyond the identity of the two spellings.
-/
import proofs.«105419_j21371757265202_1_alg».proof.Proof.KernelValue
import proofs.«105419_j21371757265202_1_alg».proof.Proof.KernelHost
import proofs.«105419_j21371757265202_1_alg».proof.Proof.RefValue

noncomputable section

namespace Cert.Bridge

open Idealize.ShloMosaic Idealize.ShloMosaic.TcCoe Idealize.SL.Sem Idealize.ShloMosaic.ValueIdx Cert.Legendre
open Cert.KernelIdeal (nD τ sig main_arg0 main_arg1 main_arg2 main_arg3 main_v55 main_v57 main_v58)
open Cert.KernelIdeal.Frm (V V_main_arg0)

/-- The weight matrices the kernel program's host operations build are those the reference's build: the same
    operations on T, matrix by matrix. -/
theorem wK_eq_wstack (T : FVec Ideal Cert.KernelIdeal.S6x64x64 .f32) (w : Fin 6) :
    Cert.KernelIdeal.Host.wK T w = Cert.ReferenceIdeal.RefValue.wstack T w := by
  match w with
  | ⟨0, _⟩ => rfl
  | ⟨1, _⟩ => rfl
  | ⟨2, _⟩ => rfl
  | ⟨3, _⟩ => rfl
  | ⟨4, _⟩ => rfl
  | ⟨5, _⟩ => rfl

variable (m : (ℓ : Loc nD τ sig) → Buf (Elt Ideal) ℓ)

/-- The kernel program's result is the reference's value of the arguments. -/
theorem result_eq (c : Dev nD) :
    Cert.KernelIdeal.Val.GK (V m c main_arg0) (V m c main_v55) (V m c main_v57) (V m c main_v58)
      = Cert.ReferenceIdeal.Read.val_main_v81 (F := Ideal) (m ((c : Thread nD τ).loc main_arg0)) (m ((c : Thread nD τ).loc main_arg1))
          (m ((c : Thread nD τ).loc main_arg2)) (m ((c : Thread nD τ).loc main_arg3)) := by
  funext i
  obtain ⟨n, o, rfl⟩ : ∃ (n : Fin 524288) (o : Fin 32), i = ix2 n o := ⟨i 0, i 1, eq_ix2 i⟩
  rw [Cert.ReferenceIdeal.RefValue.v81_apply]
  unfold Cert.KernelIdeal.Val.GK
  show rowOut _ _ _ _ o = rowOut _ _ _ _ o
  have e0 : (fun d : Fin 64 => V m c main_arg0 (ix2 n d)) = Cert.ReferenceIdeal.RefValue.zrow (m ((c : Thread nD τ).loc main_arg0)) n := by
    funext d; rw [V_main_arg0]
  have e1 : (fun (w : Fin 6) (d j : Fin 64) => V m c main_v55 (ix3 w d j)) = Cert.ReferenceIdeal.RefValue.wref (m ((c : Thread nD τ).loc main_arg1)) := by
    funext w d j
    rw [Cert.KernelIdeal.Host.v55_apply, wK_eq_wstack]
    rfl
  have e2 : (fun (k : Fin 64) (o : Fin 32) => V m c main_v57 (ix2 k o)) = fun k o => m ((c : Thread nD τ).loc main_arg2) (ix2 o k) := by
    funext k o; exact Cert.KernelIdeal.Host.v57_apply m c k o
  have e3 : (fun o : Fin 32 => V m c main_v58 (ix2 (0 : Fin 1) o)) = fun o => m ((c : Thread nD τ).loc main_arg3) (ix1 o) := by
    funext o; exact Cert.KernelIdeal.Host.v58_apply m c 0 o
  rw [e0, e1, e2, e3]

end Cert.Bridge

end
-- ==== Proof.lean ====
/-
  The certificate of the degree-six polynomial-recurrence kernel against its reference, over the extended reals.

  Both programs compute, for every row n of z and every output column o,
      out[n, o] = ∑ₖ P₆[n, k] · C[o, k] + β[o],
  where P₁ = z·W₁, Pᵢ = (z·Wᵢ) ∘ Pᵢ₋₁ − cᵢ · Pᵢ₋₂ (P₀ = 1), W₁ = T₀ᵀ and, for i ≥ 2, Wᵢ is the transpose of Tᵢ₋₁ with each
  row divided by its sum, scaled by the literal (2i−1)/i; the cᵢ are the literals (i−1)/i.  The kernel program builds the
  weights on the host and runs the recurrence block of 8192 rows by block in one pipelined region; the reference runs it
  on the whole array.  Read on the extended reals a change of float format is the identity and every matrix product is
  the plain sum over the contracted index, so the two results are the same expression entry by entry (`Bridge`), and
  the precondition (finite inputs) is never opened.

  The three frames: each kernel program runs to the end through the library's frame run over its pipeline's proof data
  (`BitsFrame`, `IdealFrame`); the reference is a line of host operations.  The idealization rewrote nothing, so
  `preserves` is trivial.
-/
import proofs.«105419_j21371757265202_1_alg».proof.Defs
import proofs.«105419_j21371757265202_1_alg».proof.Proof.Gen.Kernel
import proofs.«105419_j21371757265202_1_alg».proof.Proof.Gen.KernelIdeal
import proofs.«105419_j21371757265202_1_alg».proof.Proof.Gen.ReferenceIdeal
import proofs.«105419_j21371757265202_1_alg».proof.Proof.Gen.Pre_finite_inputs
import proofs.«105419_j21371757265202_1_alg».proof.Proof.Gen.ReferenceIdeal.Run
import proofs.«105419_j21371757265202_1_alg».proof.Proof.Gen.ReferenceIdeal.Read
import proofs.«105419_j21371757265202_1_alg».proof.Proof.BitsFrame
import proofs.«105419_j21371757265202_1_alg».proof.Proof.IdealFrame
import proofs.«105419_j21371757265202_1_alg».proof.Proof.KernelValue
import proofs.«105419_j21371757265202_1_alg».proof.Proof.Bridge
import Idealize.ShloMosaic.Adequacy
import Idealize.ShloMosaic.Init

noncomputable section

namespace Cert.Proof

open Idealize.ShloMosaic Idealize.ShloMosaic.TcCoe Idealize.SL.Sem

theorem frame_bits : Cert.frame_Kernel := fun m ρ _ => Cert.Kernel.Frm.frame m ρ
theorem frame_ideal : Cert.frame_KernelIdeal := fun m ρ _ => Cert.KernelIdeal.Frm.frame m ρ
theorem frame_ref : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the result at the row function of the
    arguments (the kernel program's by its blocks, the reference's by its host operations), the arguments unchanged. -/
theorem algebraic : Cert.algebraic_KernelIdeal_ReferenceIdeal := by
  intro m ρ m' ρ' _ hagree
  refine ⟨fun c => Cert.KernelIdeal.Val.GK (Cert.KernelIdeal.Frm.V m c Cert.KernelIdeal.main_arg0) (Cert.KernelIdeal.Frm.V m c Cert.KernelIdeal.main_v55)
    (Cert.KernelIdeal.Frm.V m c Cert.KernelIdeal.main_v57) (Cert.KernelIdeal.Frm.V m c Cert.KernelIdeal.main_v58), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, (hagree c).1, (hagree c).2.1, (hagree c).2.2.1, (hagree c).2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_bits, frame_ideal, frame_ref, trivial, algebraic⟩

end Cert.Proof

end
